-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120128x128 : Shape := ⟨2, ![120128, 128]⟩
abbrev S8192 : Shape := ⟨1, ![8192]⟩
abbrev S8192x128 : Shape := ⟨2, ![8192, 128]⟩
abbrev S128 : Shape := ⟨1, ![128]⟩
abbrev S_ : Shape := ⟨0, ![]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x1 : Shape := ⟨2, ![128, 1]⟩
abbrev S1 : Shape := ⟨1, ![1]⟩

class Facts : Prop where
  bcast_S_S120128x128 : S_.BroadcastsInDim S120128x128 (![] : Fin 0 → Fin S120128x128.rank)
  reducesTo_S120128x128_S_d0_1 : S120128x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S128 .f32) (main_arg14 : FVec F S128x1 .f32) (main_arg15 : FVec F S1 .f32) (main_v46 : IVec S_ 1) (main_v49 : IVec S256x128 1) (main_c_19 : IVec S_ 1) : IVec S_ 1 :=
  let main_v50 : IVec S_ 1 := (fun x v => Host.reduce IntOp.andi x v reducesTo_S256x128_S_d0_1 h_S_) main_v49 main_c_19
  let main_v51 : IVec S_ 1 := andi main_v46 main_v50
  let main_v52 : FVec F S128 .f32 := Host.absf main_arg13
  let main_cst_20 : FVec F S_ .f32 := constant S_ .f32 0x7F800000#32
  let main_v53 : FVec F S128 .f32 := broadcastInDim S128 ![] bcast_S_S128 main_cst_20
  let main_v54 : IVec S128 1 := cmpf .olt main_v52 main_v53
  let main_c_21 : IVec S_ 1 := constantI S_ 1 1#1
  let main_v55 : IVec S_ 1 := (fun x v => Host.reduce IntOp.andi x v reducesTo_S128_S_d0 h_S_) main_v54 main_c_21
  let main_v56 : IVec S_ 1 := andi main_v51 main_v55
  let main_v57 : FVec F S128x1 .f32 := Host.absf main_arg14
  let main_cst_22 : FVec F S_ .f32 := constant S_ .f32 0x7F800000#32
  let main_v58 : FVec F S128x1 .f32 := broadcastInDim S128x1 ![] bcast_S_S128x1 main_cst_22
  let main_v59 : IVec S128x1 1 := cmpf .olt main_v57 main_v58
  let main_c_23 : IVec S_ 1 := constantI S_ 1 1#1
  let main_v60 : IVec S_ 1 := (fun x v => Host.reduce IntOp.andi x v reducesTo_S128x1_S_d0_1 h_S_) main_v59 main_c_23
  let main_v61 : IVec S_ 1 := andi main_v56 main_v60
  let main_v62 : FVec F S1 .f32 := Host.absf main_arg15
  let main_cst_24 : FVec F S_ .f32 := constant S_ .f32 0x7F800000#32
  let main_v63 : FVec F S1 .f32 := broadcastInDim S1 ![] bcast_S_S1 main_cst_24
  let main_v64 : IVec S1 1 := cmpf .olt main_v62 main_v63
  let main_c_25 : IVec S_ 1 := constantI S_ 1 1#1
  let main_v65 : IVec S_ 1 := (fun x v => Host.reduce IntOp.andi x v reducesTo_S1_S_d0 h_S_) main_v64 main_c_25
  let main_v66 : IVec S_ 1 := andi main_v61 main_v65
  main_v66

def fn_part2 {F : FTy → Type} [FloatOps F] (main_arg10 : FVec F S512x256 .f32) (main_arg11 : FVec F S256 .f32) (main_arg12 : FVec F S256x128 .f32) (main_arg13 : FVec F S128 .f32) (main_arg14 : FVec F S128x1 .f32) (main_arg15 : FVec F S1 .f32) (main_v31 : IVec S_ 1) (main_v32 : FVec F S512 .f32) (main_cst_12 : FVec F S_ .f32) : IVec S_ 1 :=
  let main_v33 : FVec F S512 .f32 := broadcastInDim S512 ![] bcast_S_S512 main_cst_12
  let main_v34 : IVec S512 1 := cmpf .olt main_v32 main_v33
  let main_c_13 : IVec S_ 1 := constantI S_ 1 1#1
  let main_v35 : IVec S_ 1 := (fun x v => Host.reduce IntOp.andi x v reducesTo_S512_S_d0 h_S_) main_v34 main_c_13
  let main_v36 : IVec S_ 1 := andi main_v31 main_v35
  let main_v37 : FVec F S512x256 .f32 := Host.absf main_arg10
  let main_cst_14 : FVec F S_ .f32 := constant S_ .f32 0x7F800000#32
  let main_v38 : FVec F S512x256 .f32 := broadcastInDim S512x256 ![] bcast_S_S512x256 main_cst_14
  let main_v39 : IVec S512x256 1 := cmpf .olt main_v37 main_v38
  let main_c_15 : IVec S_ 1 := constantI S_ 1 1#1
  let main_v40 : IVec S_ 1 := (fun x v => Host.reduce IntOp.andi x v reducesTo_S512x256_S_d0_1 h_S_) main_v39 main_c_15
  let main_v41 : IVec S_ 1 := andi main_v36 main_v40
  let main_v42 : FVec F S256 .f32 := Host.absf main_arg11
  let main_cst_16 : FVec F S_ .f32 := constant S_ .f32 0x7F800000#32
  let main_v43 : FVec F S256 .f32 := broadcastInDim S256 ![] bcast_S_S256 main_cst_16
  let main_v44 : IVec S256 1 := cmpf .olt main_v42 main_v43
  let main_c_17 : IVec S_ 1 := constantI S_ 1 1#1
  let main_v45 : IVec S_ 1 := (fun x v => Host.reduce IntOp.andi x v reducesTo_S256_S_d0 h_S_) main_v44 main_c_17
  let main_v46 : IVec S_ 1 := andi main_v41 main_v45
  let main_v47 : FVec F S256x128 .f32 := Host.absf main_arg12
  let main_cst_18 : FVec F S_ .f32 := constant S_ .f32 0x7F800000#32
  let main_v48 : FVec F S256x128 .f32 := broadcastInDim S256x128 ![] bcast_S_S256x128 main_cst_18
  let main_v49 : IVec S256x128 1 := cmpf .olt main_v47 main_v48
  let main_c_19 : IVec S_ 1 := constantI S_ 1 1#1
  fn_part3 (F := F) main_arg13 main_arg14 main_arg15 main_v46 main_v49 main_c_19

def fn_part1 {F : FTy → Type} [FloatOps F] (main_arg6 : FVec F S128 .f32) (main_arg7 : FVec F S_ .f32) (main_arg8 : FVec F S128x512 .f32) (main_arg9 : FVec F S512 .f32) (main_arg10 : FVec F S512x256 .f32) (main_arg11 : FVec F S256 .f32) (main_arg12 : FVec F S256x128 .f32) (main_arg13 : FVec F S128 .f32) (main_arg14 : FVec F S128x1 .f32) (main_arg15 : FVec F S1 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128 .f32 := Host.absf main_arg6
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S_ .f32 := Host.absf main_arg7
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_v27 : FVec F S128x512 .f32 := Host.absf main_arg8
  let main_cst_10 : FVec F S_ .f32 := constant S_ .f32 0x7F800000#32
  let main_v28 : FVec F S128x512 .f32 := broadcastInDim S128x512 ![] bcast_S_S128x512 main_cst_10
  let main_v29 : IVec S128x512 1 := cmpf .olt main_v27 main_v28
  let main_c_11 : IVec S_ 1 := constantI S_ 1 1#1
  let main_v30 : IVec S_ 1 := (fun x v => Host.reduce IntOp.andi x v reducesTo_S128x512_S_d0_1 h_S_) main_v29 main_c_11
  let main_v31 : IVec S_ 1 := andi main_v26 main_v30
  let main_v32 : FVec F S512 .f32 := Host.absf main_arg9
  let main_cst_12 : FVec F S_ .f32 := constant S_ .f32 0x7F800000#32
  fn_part2 (F := F) main_arg10 main_arg11 main_arg12 main_arg13 main_arg14 main_arg15 main_v31 main_v32 main_cst_12

def fn {F : FTy → Type} [FloatOps F] (main_arg0 : FVec F S120128x128 .f32) (main_arg1 : IVec S8192 32) (main_arg2 : IVec S8192 32) (main_arg3 : FVec F S8192x128 .f32) (main_arg4 : FVec F S128 .f32) (main_arg5 : FVec F S_ .f32) (main_arg6 : FVec F S128 .f32) (main_arg7 : FVec F S_ .f32) (main_arg8 : FVec F S128x512 .f32) (main_arg9 : FVec F S512 .f32) (main_arg10 : FVec F S512x256 .f32) (main_arg11 : FVec F S256 .f32) (main_arg12 : FVec F S256x128 .f32) (main_arg13 : FVec F S128 .f32) (main_arg14 : FVec F S128x1 .f32) (main_arg15 : FVec F S1 .f32) : IVec S_ 1 :=
  let main_v0 : FVec F S120128x128 .f32 := Host.absf main_arg0
  let main_cst : FVec F S_ .f32 := constant S_ .f32 0x7F800000#32
  let main_v1 : FVec F S120128x128 .f32 := broadcastInDim S120128x128 ![] bcast_S_S120128x128 main_cst
  let main_v2 : IVec S120128x128 1 := cmpf .olt main_v0 main_v1
  let main_c : IVec S_ 1 := constantI S_ 1 1#1
  let main_v3 : IVec S_ 1 := (fun x v => Host.reduce IntOp.andi x v reducesTo_S120128x128_S_d0_1 h_S_) main_v2 main_c
  let main_v4 : FVec F S8192x128 .f32 := Host.absf main_arg3
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg5
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg6 main_arg7 main_arg8 main_arg9 main_arg10 main_arg11 main_arg12 main_arg13 main_arg14 main_arg15 main_v13 main_v15 main_c_5
-- ==== Kernel.lean ====
abbrev S120128x128 : Shape := ⟨2, ![120128, 128]⟩
abbrev S8192 : Shape := ⟨1, ![8192]⟩
abbrev S8192x128 : Shape := ⟨2, ![8192, 128]⟩
abbrev S128 : Shape := ⟨1, ![128]⟩
abbrev S_ : Shape := ⟨0, ![]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S128x128 : Shape := ⟨2, ![128, 128]⟩
abbrev S8192x1 : Shape := ⟨2, ![8192, 1]⟩
abbrev S1x128 : Shape := ⟨2, ![1, 128]⟩
abbrev S1x1 : Shape := ⟨2, ![1, 1]⟩
abbrev S1x512 : Shape := ⟨2, ![1, 512]⟩
abbrev S1x256 : Shape := ⟨2, ![1, 256]⟩
abbrev S1024x128 : Shape := ⟨2, ![1024, 128]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 46
  | .vmem => 21
  | .smem => 0
  | _ => 0

abbrev bufTy : (tb : Table) → Fin (tcTables nBuf tb) → BufTy
  | .hbm, ⟨0, _⟩ => ⟨S120128x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S_, .f32⟩
  | .hbm, ⟨8, _⟩ => ⟨S128x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S128x128, .f32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192x128, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x128, .f32⟩
  | .hbm, ⟨35, _⟩ => ⟨S128x128, .f32⟩
  | .hbm, ⟨36, _⟩ => ⟨S1x128, .f32⟩
  | .hbm, ⟨37, _⟩ => ⟨S1x128, .f32⟩
  | .hbm, ⟨38, _⟩ => ⟨S1x1, .f32⟩
  | .hbm, ⟨39, _⟩ => ⟨S1x1, .f32⟩
  | .hbm, ⟨40, _⟩ => ⟨S1x512, .f32⟩
  | .hbm, ⟨41, _⟩ => ⟨S1x256, .f32⟩
  | .hbm, ⟨42, _⟩ => ⟨S1x128, .f32⟩
  | .hbm, ⟨43, _⟩ => ⟨S1x1, .f32⟩
  | .hbm, ⟨44, _⟩ => ⟨S8192x1, .f32⟩
  | .hbm, ⟨45, _⟩ => ⟨S8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x1, .f32⟩
  | .local _ .vmem, ⟨10, _⟩ => ⟨S1x1, .f32⟩
  | .local _ .vmem, ⟨11, _⟩ => ⟨S128x512, .f32⟩
  | .local _ .vmem, ⟨12, _⟩ => ⟨S1x512, .f32⟩
  | .local _ .vmem, ⟨13, _⟩ => ⟨S512x256, .f32⟩
  | .local _ .vmem, ⟨14, _⟩ => ⟨S1x256, .f32⟩
  | .local _ .vmem, ⟨15, _⟩ => ⟨S256x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S1024x1, .f32⟩
  | .local _ .vmem, ⟨20, _⟩ => ⟨S1024x1, .f32⟩
  | _, _ => ⟨S120128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S120128x128_S128x128_120000_0 : S120128x128.Slices ![120000, 0] S128x128
  bcast_S_S8192 : S_.BroadcastsInDim S8192 (![] : Fin 0 → Fin S8192.rank)
  bcast_S8192_S8192x1_0 : S8192.BroadcastsInDim S8192x1 (![0] : Fin 1 → Fin S8192x1.rank)
  transposes_S128x128_S128x128_1_0 : S128x128.Transposes [1, 0] S128x128
  shapeCasts_S128_S1x128 : S128.ShapeCasts S1x128
  shapeCasts_S_S1x1 : S_.ShapeCasts S1x1
  shapeCasts_S512_S1x512 : S512.ShapeCasts S1x512
  shapeCasts_S256_S1x256 : S256.ShapeCasts S1x256
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x128_S1024x128 : S1x128.Broadcasts S1024x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  gather_S120128x128_S8192x1_S8192x128_1_0_n_n_0_1_1128_wf : GatherDims.WF S120128x128 S8192x1 S8192x128 [1] [0] [] [0] [] 1 ![1, 128]
  dot_S1024x128_S128x128_S1024x128_1_0_0_1_n_n_wf : DotDims.WF S1024x128 S128x128 S1024x128 [1] [0] [0] [1] [] []
  dot_S1024x128_S128x512_S1024x512_1_0_0_1_n_n_wf : DotDims.WF S1024x128 S128x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .f32 = 32 ∨ (Rect.block (s := S128x512) S128x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x128.size a ≤ S256x128.size a
  hwx0_12 : ∀ i : grid0.Coords, EltTy.bits .f32 = 32 ∨ (Rect.block (s := S256x128) S256x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x1.size a ≤ S8192x1.size a
  hwx0_16 : ∀ i : grid0.Coords, EltTy.bits .f32 = 32 ∨ (Rect.block (s := S8192x1) S1024x1.size (cc0_transform_16 i) (hinb0_16 i)).WholeWords (EltTy.packing .f32)

variable [Facts₀]

def gather_S120128x128_S8192x1_S8192x128_1_0_n_n_0_1_1128 : GatherDims S120128x128 S8192x1 S8192x128 where
  offsetDims := [1]
  collapsedSliceDims := [0]
  operandBatchingDims := []
  startIndicesBatchingDims := []
  startIndexMap := [0]
  indexVectorDim := 1
  sliceSizes := ![1, 128]
  wf := gather_S120128x128_S8192x1_S8192x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v7) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v23) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v24) S1024x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S120128x128 : Shape := ⟨2, ![120128, 128]⟩
abbrev S8192 : Shape := ⟨1, ![8192]⟩
abbrev S8192x128 : Shape := ⟨2, ![8192, 128]⟩
abbrev S128 : Shape := ⟨1, ![128]⟩
abbrev S_ : Shape := ⟨0, ![]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128x1 : Shape := ⟨2, ![128, 1]⟩
abbrev S1 : Shape := ⟨1, ![1]⟩
abbrev S128x128 : Shape := ⟨2, ![128, 128]⟩
abbrev S8192x1 : Shape := ⟨2, ![8192, 1]⟩
abbrev S1x128 : Shape := ⟨2, ![1, 128]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S1x1 : Shape := ⟨2, ![1, 1]⟩

abbrev nBuf : Space → Nat
  | .hbm => 93
  | .vmem => 0
  | .smem => 0
  | _ => 0

abbrev bufTy : (tb : Table) → Fin (tcTables nBuf tb) → BufTy
  | .hbm, ⟨0, _⟩ => ⟨S120128x128, .f32⟩
  | .hbm, ⟨1, _⟩ => ⟨S8192, .i32⟩
  | .hbm, ⟨2, _⟩ => ⟨S8192, .i32⟩
  | .hbm, ⟨3, _⟩ => ⟨S8192x128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S_, .f32⟩
  | .hbm, ⟨8, _⟩ => ⟨S128x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S128x128, .f32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S8192x1, .i32⟩
  | .hbm, ⟨25, _⟩ => ⟨S8192x128, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .f32⟩
  | .hbm, ⟨46, _⟩ => ⟨S_, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S_, .f32⟩
  | .hbm, ⟨58, _⟩ => ⟨S8192x128, .f32⟩
  | .hbm, ⟨59, _⟩ => ⟨S8192x128, .f32⟩
  | .hbm, ⟨60, _⟩ => ⟨S_, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x256, .f32⟩
  | .hbm, ⟨71, _⟩ => ⟨S1x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x128, .f32⟩
  | .hbm, ⟨76, _⟩ => ⟨S1x128, .f32⟩
  | .hbm, ⟨77, _⟩ => ⟨S8192x128, .f32⟩
  | .hbm, ⟨78, _⟩ => ⟨S8192x128, .f32⟩
  | .hbm, ⟨79, _⟩ => ⟨S8192x128, .f32⟩
  | .hbm, ⟨80, _⟩ => ⟨S8192x1, .f32⟩
  | .hbm, ⟨81, _⟩ => ⟨S1x1, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192, .f32⟩
  | _, _ => ⟨S120128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_6 : Ref sig .tc := ⟨.hbm, 86, rfl⟩
abbrev main_v62 : Ref sig .tc := ⟨.hbm, 87, rfl⟩
abbrev main_v63 : Ref sig .tc := ⟨.hbm, 88, rfl⟩
abbrev main_cst_7 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S120128x128_S128x128_120000_0 : S120128x128.Slices ![120000, 0] S128x128
  bcast_S_S8192 : S_.BroadcastsInDim S8192 (![] : Fin 0 → Fin S8192.rank)
  bcast_S8192_S8192x1_0 : S8192.BroadcastsInDim S8192x1 (![0] : Fin 1 → Fin S8192x1.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  gather_S120128x128_S8192x1_S8192x128_1_0_n_n_0_1_1128_wf : GatherDims.WF S120128x128 S8192x1 S8192x128 [1] [0] [] [0] [] 1 ![1, 128]
  dot_S8192x128_S128x128_S8192x128_1_1_0_0_n_n_wf : DotDims.WF S8192x128 S128x128 S8192x128 [1] [1] [0] [0] [] []
  dot_S8192x128_S128x512_S8192x512_1_0_0_1_n_n_wf : DotDims.WF S8192x128 S128x512 S8192x512 [1] [0] [0] [1] [] []
  dot_S8192x512_S512x256_S8192x256_1_0_0_1_n_n_wf : DotDims.WF S8192x512 S512x256 S8192x256 [1] [0] [0] [1] [] []
  dot_S8192x256_S256x128_S8192x128_1_0_0_1_n_n_wf : DotDims.WF S8192x256 S256x128 S8192x128 [1] [0] [0] [1] [] []
  dot_S8192x128_S128x1_S8192x1_1_0_0_1_n_n_wf : DotDims.WF S8192x128 S128x1 S8192x1 [1] [0] [0] [1] [] []

variable [Facts₀]

def gather_S120128x128_S8192x1_S8192x128_1_0_n_n_0_1_1128 : GatherDims S120128x128 S8192x1 S8192x128 where
  offsetDims := [1]
  collapsedSliceDims := [0]
  operandBatchingDims := []
  startIndicesBatchingDims := []
  startIndexMap := [0]
  indexVectorDim := 1
  sliceSizes := ![1, 128]
  wf := gather_S120128x128_S8192x1_S8192x128_1_0_n_n_0_1_1128_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S8192x128_S128x512_S8192x512_1_0_0_1_n_n : DotDims S8192x128 S128x512 S8192x512 where
  lhsContracting := [1]
  rhsContracting := [0]
  lhsNonContracting := [0]
  rhsNonContracting := [1]
  lhsBatch := []
  rhsBatch := []
  wf := dot_S8192x128_S128x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.LibDot.lean ====
/-
  Matrix products read at an entry, at the ideal values.

  A product of an M×K matrix with a K×N matrix, contracted over the left operand's columns and the right operand's
  rows, has at entry (p, q) the value  ∑ k, L (p, k) · R (k, q)  — a plain sum over the K positions of the contracted
  axis.  When the right operand is instead an N×K matrix contracted over ITS columns (a product with the transpose), the
  entry is  ∑ k, L (p, k) · R (q, k).  Both facts hold for any dimension record whose axis lists say so, whatever
  well-formedness evidence the record carries; they are stated for the contraction sum itself, for a kernel's product
  into a zero accumulator, and for a host program's product.
-/
import Idealize.ShloMosaic.Lib.ValueIdx
import Idealize.ShloMosaic.PureOps.Ideal.Laws

noncomputable section

open Idealize.ShloMosaic Idealize.ShloMosaic.ValueIdx

namespace Cert.LibDot

variable {M K N : Nat}

/-- Two reads of one index function at equal axis numbers agree. -/
theorem val_congr {s : Shape} (j : s.Idx) (a b : Nat) (ha : a < s.rank) (hb : b < s.rank) (h : a = b) :
    (j ⟨a, ha⟩).val = (j ⟨b, hb⟩).val := by subst h; rfl

/-! ## Rows by columns -/

/-- The left operand's row is the entry's row. -/
theorem rc_lhs_row (D : DotDims ⟨2, ![M, K]⟩ ⟨2, ![K, N]⟩ ⟨2, ![M, N]⟩)
    (hln : D.lhsNonContracting = [0]) (hlb : D.lhsBatch = [])
    (i : (⟨2, ![M, N]⟩ : Shape).Idx) (k : D.contr.Idx) : (D.lhsIdx i k 0).val = (i 0).val := by
  obtain ⟨lc, rc, ln, rn, lb, rb, wf⟩ := D
  dsimp only at hln hlb
  subst hln hlb
  unfold DotDims.lhsIdx
  rw [dif_neg (show ¬(0 : Fin (⟨2, ![M, K]⟩ : Shape).rank) ∈ (DotDims.mk lc rc [0] rn [] rb wf).lhsBatch from List.not_mem_nil),
    dif_pos (show (0 : Fin (⟨2, ![M, K]⟩ : Shape).rank) ∈ (DotDims.mk lc rc [0] rn [] rb wf).lhsNonContracting from List.mem_singleton.mpr rfl)]
  rfl

/-- The right operand's column is the entry's column. -/
theorem rc_rhs_col (D : DotDims ⟨2, ![M, K]⟩ ⟨2, ![K, N]⟩ ⟨2, ![M, N]⟩)
    (hln : D.lhsNonContracting = [0]) (hrn : D.rhsNonContracting = [1]) (hlb : D.lhsBatch = []) (hrb : D.rhsBatch = [])
    (i : (⟨2, ![M, N]⟩ : Shape).Idx) (k : D.contr.Idx) : (D.rhsIdx i k 1).val = (i 1).val := by
  obtain ⟨lc, rc, ln, rn, lb, rb, wf⟩ := D
  dsimp only at hln hrn hlb hrb
  subst hln hrn hlb hrb
  unfold DotDims.rhsIdx
  rw [dif_neg (show ¬(1 : Fin (⟨2, ![K, N]⟩ : Shape).rank) ∈ (DotDims.mk lc rc [0] [1] [] [] wf).rhsBatch from List.not_mem_nil),
    dif_pos (show (1 : Fin (⟨2, ![K, N]⟩ : Shape).rank) ∈ (DotDims.mk lc rc [0] [1] [] [] wf).rhsNonContracting from List.mem_singleton.mpr rfl)]
  rfl

/-- Rows by columns: the contraction sum at entry (p, q) runs over the K pairs (p, k), (k, q). -/
theorem sum_contr_rc {α : Type} [AddCommMonoid α] (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = [])
    (f : (⟨2, ![M, K]⟩ : Shape).Idx → (⟨2, ![K, N]⟩ : Shape).Idx → α) (p : Fin M) (q : Fin N) :
    ∑ k : D.contr.Idx, f (D.lhsIdx (ix2 p q) k) (D.rhsIdx (ix2 p q) k) = ∑ k : Fin K, f (ix2 p k) (ix2 k q) := by
  have hr : D.contr.rank = 1 := by rw [D.rank_contr, hlc]; rfl
  have hs : D.contr.size ⟨0, by omega⟩ = K := by
    rw [D.size_contr 0 (by rw [hlc]; exact Nat.one_pos)]
    simp only [hlc, List.getElem_cons_zero]
    rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact rc_lhs_row D hln hlb _ _
    | ⟨1, _⟩ => exact ((D.lhsIdx_val_of_single hlc _ _).trans (val_congr _ _ _ _ _ rfl)).trans hk)
  have er : D.rhsIdx (ix2 p q) ((contrEquiv1 D K hr hs).symm k) = ix2 k q := funext fun a => Fin.ext (by
    match a with
    | ⟨0, _⟩ => exact ((D.rhsIdx_val_of_single hrc _ _).trans (val_congr _ _ _ _ _ rfl)).trans hk
    | ⟨1, _⟩ => exact rc_rhs_col D hln hrn hlb hrb _ _)
  rw [el, er]

/-- A kernel's product into a zero accumulator, rows by columns, at entry (p, q). -/
theorem matmul_zero_rc_apply {φ₁ φ₂ : FTy} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = []) (prec : Option ContractPrecision)
    (L : FVec Ideal ⟨2, ![M, K]⟩ φ₁) (R : FVec Ideal ⟨2, ![K, N]⟩ φ₂) (p : Fin M) (q : Fin N) :
    matmul D prec L R (constant ⟨2, ![M, N]⟩ .f32 0x00000000#32) (ix2 p q) = ∑ k : Fin K, L (ix2 p k) * R (ix2 k q) := by
  show FloatOps.matmul D prec L R _ _ = _
  rw [Ideal.matmul_constant_zero_apply]
  exact sum_contr_rc D hlc hrc hln hrn hlb hrb (fun a b => L a * R b) p q

/-- A host program's product, rows by columns, at entry (p, q). -/
theorem dotGeneral_rc_apply {φ₁ φ₂ : FTy} (D : DotDims ⟨2, ![M, K]⟩ ⟨2, ![K, N]⟩ ⟨2, ![M, N]⟩)
    (hlc : D.lhsContracting = [1]) (hrc : D.rhsContracting = [0])
    (hln : D.lhsNonContracting = [0]) (hrn : D.rhsNonContracting = [1])
    (hlb : D.lhsBatch = []) (hrb : D.rhsBatch = []) (prec : Option ContractPrecision)
    (L : FVec Ideal ⟨2, ![M, K]⟩ φ₁) (R : FVec Ideal ⟨2, ![K, N]⟩ φ₂) (p : Fin M) (q : Fin N) :
    Host.dotGeneral D prec L R (ix2 p q) = ∑ k : Fin K, L (ix2 p k) * R (ix2 k q) := by
  show FloatOps.dotGeneral D prec .single L R _ = _
  rw [Ideal.dotGeneral_apply]
  exact sum_contr_rc D hlc hrc hln hrn hlb hrb (fun a b => L a * R b) p q

/-! ## Rows by rows: the right operand contracted over its columns -/

/-- The left operand's row is the entry's row. -/
theorem rr_lhs_row (D : DotDims ⟨2, ![M, K]⟩ ⟨2, ![N, K]⟩ ⟨2, ![M, N]⟩)
    (hln : D.lhsNonContracting = [0]) (hlb : D.lhsBatch = [])
    (i : (⟨2, ![M, N]⟩ : Shape).Idx) (k : D.contr.Idx) : (D.lhsIdx i k 0).val = (i 0).val := by
  obtain ⟨lc, rc, ln, rn, lb, rb, wf⟩ := D
  dsimp only at hln hlb
  subst hln hlb
  unfold DotDims.lhsIdx
  rw [dif_neg (show ¬(0 : Fin (⟨2, ![M, K]⟩ : Shape).rank) ∈ (DotDims.mk lc rc [0] rn [] rb wf).lhsBatch from List.not_mem_nil),
    dif_pos (show (0 : Fin (⟨2, ![M, K]⟩ : Shape).rank) ∈ (DotDims.mk lc rc [0] rn [] rb wf).lhsNonContracting from List.mem_singleton.mpr rfl)]
  rfl

/-- The right operand's row is the entry's column. -/
theorem rr_rhs_row (D : DotDims ⟨2, ![M, K]⟩ ⟨2, ![N, K]⟩ ⟨2, ![M, N]⟩)
    (hln : D.lhsNonContracting = [0]) (hrn : D.rhsNonContracting = [0]) (hlb : D.lhsBatch = []) (hrb : D.rhsBatch = [])
    (i : (⟨2, ![M, N]⟩ : Shape).Idx) (k : D.contr.Idx) : (D.rhsIdx i k 0).val = (i 1).val := by
  obtain ⟨lc, rc, ln, rn, lb, rb, wf⟩ := D
  dsimp only at hln hrn hlb hrb
  subst hln hrn hlb hrb
  unfold DotDims.rhsIdx
  rw [dif_neg (show ¬(0 : Fin (⟨2, ![N, K]⟩ : Shape).rank) ∈ (DotDims.mk lc rc [0] [0] [] [] wf).rhsBatch from List.not_mem_nil),
    dif_pos (show (0 : Fin (⟨2, ![N, K]⟩ : Shape).rank) ∈ (DotDims.mk lc rc [0] [0] [] [] wf).rhsNonContracting from List.mem_singleton.mpr rfl)]
  rfl

/-- Rows by rows: the contraction sum at entry (p, q) runs over the K pairs (p, k), (q, k). -/
theorem sum_contr_rr {α : Type} [AddCommMonoid α] (D : DotDims ⟨2, ![M, K]⟩ ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (f : (⟨2, ![M, K]⟩ : Shape).Idx → (⟨2, ![N, K]⟩ : Shape).Idx → α) (p : Fin M) (q : Fin N) :
    ∑ k : D.contr.Idx, f (D.lhsIdx (ix2 p q) k) (D.rhsIdx (ix2 p q) k) = ∑ k : Fin K, f (ix2 p k) (ix2 q k) := by
  have hr : D.contr.rank = 1 := by rw [D.rank_contr, hlc]; rfl
  have hs : D.contr.size ⟨0, by omega⟩ = K := by
    rw [D.size_contr 0 (by rw [hlc]; exact Nat.one_pos)]
    simp only [hlc, List.getElem_cons_zero]
    rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact rr_lhs_row D hln hlb _ _
    | ⟨1, _⟩ => exact ((D.lhsIdx_val_of_single hlc _ _).trans (val_congr _ _ _ _ _ rfl)).trans hk)
  have er : D.rhsIdx (ix2 p q) ((contrEquiv1 D K hr hs).symm k) = ix2 q k := funext fun a => Fin.ext (by
    match a with
    | ⟨0, _⟩ => exact rr_rhs_row D hln hrn hlb hrb _ _
    | ⟨1, _⟩ => exact ((D.rhsIdx_val_of_single hrc _ _).trans (val_congr _ _ _ _ _ rfl)).trans hk)
  rw [el, er]

/-- A host program's product with the transpose, at entry (p, q). -/
theorem dotGeneral_rr_apply {φ₁ φ₂ : FTy} (D : DotDims ⟨2, ![M, K]⟩ ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = []) (prec : Option ContractPrecision)
    (L : FVec Ideal ⟨2, ![M, K]⟩ φ₁) (R : FVec Ideal ⟨2, ![N, K]⟩ φ₂) (p : Fin M) (q : Fin N) :
    Host.dotGeneral D prec L R (ix2 p q) = ∑ k : Fin K, L (ix2 p k) * R (ix2 q k) := by
  show FloatOps.dotGeneral D prec .single L R _ = _
  rw [Ideal.dotGeneral_apply]
  exact sum_contr_rr D hlc hrc hln hrn hlb hrb (fun a b => L a * R b) p q

end Cert.LibDot

end
-- ==== Proof.LibRows.lean ====
/-
  Row vectors, scalars and single columns read at an entry.

  A bias or weight vector reaches a matrix computation as one row copied down the rows of a matrix; a scalar reaches it as
  a 1×1 block; a result that is a single column leaves it as a vector.  Each lemma here reads one such re-laying at an
  entry (r, d): the copy of a row vector down B rows is the vector's entry d whatever the row, the only entry of a 1×1
  block is the scalar, and entry r of a column viewed as a vector is the column's entry (r, 0).
-/
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.LibRows

variable {α : Type} {B n : Nat}

/-- A 1×n row copied down B rows (a vector broadcast along trailing axes): entry (r, d) is the row's entry d. -/
theorem broadcastTo_row_apply (y : (⟨2, ![1, n]⟩ : Shape).Idx → α) (h : (⟨2, ![1, n]⟩ : Shape).Broadcasts ⟨2, ![B, n]⟩)
    (r : Fin B) (d : Fin n) : broadcastTo ⟨2, ![B, n]⟩ y h (ix2 r d) = y (ix2 (0 : Fin 1) d) :=
  broadcastTo_apply y h _ _ (fun a => by
    match a with
    | ⟨0, _⟩ => exact (if_pos rfl).symm
    | ⟨1, _⟩ =>
      show d.val = if n = 1 then 0 else d.val
      split
      · have := d.isLt; omega
      · rfl)

/-- A length-n vector laid as a 1×n row and that row copied down B rows (two broadcasts along named axes):
    entry (r, d) is the vector's entry d. -/
theorem broadcastInDim_vec_rows_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![B, n]⟩ ![0, 1]) (r : Fin B) (d : Fin n) :
    broadcastInDim ⟨2, ![B, n]⟩ ![0, 1] h2 (broadcastInDim ⟨2, ![1, n]⟩ ![1] h1 x) (ix2 r d) = x (ix1 d) := by
  rw [broadcastInDim_apply ![0, 1] h2 _ (ix2 r d) (ix2 (0 : Fin 1) d) (fun a => by
    match a with
    | ⟨0, _⟩ => exact (if_pos rfl).symm
    | ⟨1, _⟩ =>
      show d.val = if n = 1 then 0 else d.val
      split
      · have := d.isLt; omega
      · rfl)]
  exact broadcastInDim_apply ![1] h1 x (ix2 (0 : Fin 1) d) (ix1 d) (fun a => by
    match a with
    | ⟨0, _⟩ =>
      show d.val = if n = 1 then 0 else d.val
      split
      · have := d.isLt; omega
      · rfl)

/-- The one entry of a 1×1 block, extracted as a scalar. -/
theorem extractAt_1x1 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  exact congrArg v (funext fun a => Fin.ext (by
    match a with
    | ⟨0, _⟩ => rfl
    | ⟨1, _⟩ => rfl))

/-- A scalar viewed as a 1×1 block: its one entry is the scalar. -/
theorem shapeCast_scalar_1x1_apply (x : (⟨0, ![]⟩ : Shape).Idx → α) (h : (⟨0, ![]⟩ : Shape).ShapeCasts ⟨2, ![1, 1]⟩)
    (u v : Fin 1) : shapeCast ⟨2, ![1, 1]⟩ x h (ix2 u v) = x ix0 :=
  congrArg x (eq_ix0 _)

/-- A B×1 column viewed as a length-B vector: entry r is the column's entry (r, 0). -/
theorem shapeCast_col_vec_apply (x : (⟨2, ![B, 1]⟩ : Shape).Idx → α) (h : (⟨2, ![B, 1]⟩ : Shape).ShapeCasts ⟨1, ![B]⟩)
    (r : Fin B) : shapeCast ⟨1, ![B]⟩ x h (ix1 r) = x (ix2 r (0 : Fin 1)) :=
  shapeCast_apply x h _ _ (by
    rw [Shape.rowMajor_val_two, Shape.rowMajor_val_one]
    show r.val * 1 + 0 = r.val
    omega)

/-! ## The two copies as functions

Named forms of "a vector copied down the rows" and "a scalar copied everywhere", with the broadcasts that produce them. -/

/-- The B×n matrix every row of which is the vector `x`. -/
def rowCopy (B : Nat) (x : (⟨1, ![n]⟩ : Shape).Idx → α) : (⟨2, ![B, n]⟩ : Shape).Idx → α := fun j => x (ix1 (j 1))

theorem rowCopy_apply (x : (⟨1, ![n]⟩ : Shape).Idx → α) (r : Fin B) (d : Fin n) : rowCopy B x (ix2 r d) = x (ix1 d) := rfl

/-- A vector laid as a row and the row copied down B rows is `rowCopy`. -/
theorem broadcastInDim_vec_rows_eq (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![B, n]⟩ ![0, 1]) :
    broadcastInDim ⟨2, ![B, n]⟩ ![0, 1] h2 (broadcastInDim ⟨2, ![1, n]⟩ ![1] h1 x) = rowCopy B x :=
  funext fun j => by
    obtain ⟨r, d, rfl⟩ : ∃ (r : Fin B) (d : Fin n), j = ix2 r d := ⟨j 0, j 1, eq_ix2 j⟩
    exact broadcastInDim_vec_rows_apply x h1 h2 r d

/-- The array of shape `T` every entry of which is the scalar `x`. -/
def splat (T : Shape) (x : (⟨0, ![]⟩ : Shape).Idx → α) : T.Idx → α := fun _ => x ix0

theorem splat_apply (T : Shape) (x : (⟨0, ![]⟩ : Shape).Idx → α) (j : T.Idx) : splat T x j = x ix0 := rfl

/-- A scalar broadcast to any shape is `splat`. -/
theorem broadcastInDim_scalar_eq {T : Shape} (h : (⟨0, ![]⟩ : Shape).BroadcastsInDim T ![])
    (x : (⟨0, ![]⟩ : Shape).Idx → α) : broadcastInDim T ![] h x = splat T x :=
  funext fun j => by unfold broadcastInDim splat; exact congrArg x (funext fun a => a.elim0)

end Cert.LibRows

end
-- ==== Proof.Spec.lean ====
/-
  What one batch row of the decoder computes, as a function of that row's inputs and of the shared weights, over the
  extended reals.

  For a student embedding `stu`, an exercise embedding `exer` (both of length 128), the row's knowledge-point
  relevance `kp` (length 128) and the 128 knowledge-concept embeddings `kn k`:
    proficiency k  = σ( ∑_d (stu d · w_stat d) · kn k d + b_stat )
    difficulty  k  = σ( ∑_d (exer d · w_kdiff d) · kn k d + b_kdiff )
    state k        = kp k · (proficiency k − difficulty k)
  and the prediction is a four-layer perceptron of `state`, tanh after each of the first three layers and σ after the
  last:  σ( W4ᵀ tanh( W3ᵀ tanh( W2ᵀ tanh( W1ᵀ state + b1 ) + b2 ) + b3 ) + b4 ).
  Here σ x = 1 / (1 + e^(−x)).  Every sum is a plain finite sum in the order of its index; nothing is rearranged.
-/
import Idealize.ShloMosaic.PureOps.Ideal
import Idealize.ShloMosaic.Lib.ValueIdx

noncomputable section

open Idealize.ShloMosaic Idealize.ShloMosaic.ValueIdx

namespace Cert.Spec

/-- An inner product plus an offset: ∑_k x k · w k + β. -/
def lin {n : Nat} (x w : Fin n → EReal) (β : EReal) : EReal := (∑ k : Fin n, x k * w k) + β

/-- The row's state vector: relevance times (proficiency − difficulty), concept by concept. -/
def state (stu exer kp : Fin 128 → EReal) (kn : Fin 128 → Fin 128 → EReal)
    (ws : Fin 128 → EReal) (bs : EReal) (wk : Fin 128 → EReal) (bk : EReal) (k : Fin 128) : EReal :=
  kp k * (Ideal.logistic (lin (fun d => stu d * ws d) (fun d => kn k d) bs)
    - Ideal.logistic (lin (fun d => exer d * wk d) (fun d => kn k d) bk))

/-- The perceptron on a state vector. -/
def mlp (s : Fin 128 → EReal) (W1 : Fin 128 → Fin 512 → EReal) (b1 : Fin 512 → EReal)
    (W2 : Fin 512 → Fin 256 → EReal) (b2 : Fin 256 → EReal) (W3 : Fin 256 → Fin 128 → EReal) (b3 : Fin 128 → EReal)
    (W4 : Fin 128 → EReal) (b4 : EReal) : EReal :=
  Ideal.logistic (lin (fun j => Ideal.tanh (lin (fun l => Ideal.tanh (lin (fun q => Ideal.tanh
    (lin s (fun k => W1 k q) (b1 q))) (fun q => W2 q l) (b2 l))) (fun l => W3 l j) (b3 j))) W4 b4)

/-- The row's prediction. -/
def rowOut (stu exer kp : Fin 128 → EReal) (kn : Fin 128 → Fin 128 → EReal)
    (ws : Fin 128 → EReal) (bs : EReal) (wk : Fin 128 → EReal) (bk : EReal)
    (W1 : Fin 128 → Fin 512 → EReal) (b1 : Fin 512 → EReal)
    (W2 : Fin 512 → Fin 256 → EReal) (b2 : Fin 256 → EReal) (W3 : Fin 256 → Fin 128 → EReal) (b3 : Fin 128 → EReal)
    (W4 : Fin 128 → EReal) (b4 : EReal) : EReal :=
  mlp (state stu exer kp kn ws bs wk bk) W1 b1 W2 b2 W3 b3 W4 b4

/-- The whole batch: entry `i` of the result vector is the prediction of row `i` of the two gathered embedding matrices
    `stu`, `exer` and of the relevance matrix `kp`, against the concept matrix `kn` and the weights, each read off its
    array at the entry the formula names. -/
def batchOut (stu exer kp : (⟨2, ![8192, 128]⟩ : Shape).Idx → EReal) (kn : (⟨2, ![128, 128]⟩ : Shape).Idx → EReal)
    (ws : (⟨1, ![128]⟩ : Shape).Idx → EReal) (bs : (⟨0, ![]⟩ : Shape).Idx → EReal)
    (wk : (⟨1, ![128]⟩ : Shape).Idx → EReal) (bk : (⟨0, ![]⟩ : Shape).Idx → EReal)
    (W1 : (⟨2, ![128, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 128]⟩ : Shape).Idx → EReal) (b3 : (⟨1, ![128]⟩ : Shape).Idx → EReal)
    (W4 : (⟨2, ![128, 1]⟩ : Shape).Idx → EReal) (b4 : (⟨1, ![1]⟩ : Shape).Idx → EReal) :
    (⟨1, ![8192]⟩ : Shape).Idx → EReal := fun i =>
  rowOut (fun d => stu (ix2 (i 0) d)) (fun d => exer (ix2 (i 0) d)) (fun k => kp (ix2 (i 0) k)) (fun k d => kn (ix2 k d))
    (fun d => ws (ix1 d)) (bs ix0) (fun d => wk (ix1 d)) (bk ix0)
    (fun k q => W1 (ix2 k q)) (fun q => b1 (ix1 q)) (fun q l => W2 (ix2 q l)) (fun l => b2 (ix1 l))
    (fun l j => W3 (ix2 l j)) (fun j => b3 (ix1 j)) (fun j => W4 (ix2 j (0 : Fin 1))) (b4 (ix1 (0 : Fin 1)))

end Cert.Spec

end
-- ==== Proof.KernelBlock.lean ====
/-
  One block of the kernel, row by row.

  At a grid point the kernel body sees 1024 rows of the student embeddings, of the exercise embeddings and of the
  relevance matrix, together with the whole (transposed) concept matrix and all weights, and stores a 1024×1 column.
  Its arithmetic is one pure term of those blocks.  Read at local row p, that term is the specification's per-row
  prediction of row p of each block: every matrix product is a sum over the contracted axis, the products' narrowing
  to bfloat16 is the identity on the extended reals, each bias row is read at its column, each scalar at the one
  entry of its 1×1 block, and the concept matrix, which the kernel holds transposed, is read at the swapped entry.
-/
import proofs.«156298_j56848187130407_1_alg».proof.Proof.Gen.KernelIdeal.Skeleton
import proofs.«156298_j56848187130407_1_alg».proof.Proof.LibDot
import proofs.«156298_j56848187130407_1_alg».proof.Proof.LibRows
import proofs.«156298_j56848187130407_1_alg».proof.Proof.Spec

noncomputable section

open Idealize.ShloMosaic Idealize.ShloMosaic.ValueIdx

namespace Cert.KernelIdeal.Block

open Cert.KernelIdeal Cert.KernelIdeal.Gen Cert.Spec

/-- The logistic function of a vector, entry by entry. -/
theorem logistic_apply {s : Shape} {φ : FTy} (x : FVec Ideal s φ) (i : s.Idx) : logistic x i = Ideal.logistic (x i) := rfl

/-- The hyperbolic tangent of a vector, entry by entry. -/
theorem tanh_apply {s : Shape} {φ : FTy} (x : FVec Ideal s φ) (i : s.Idx) : tanh x i = Ideal.tanh (x i) := rfl

/-- The body's stored column at local row `p` is the per-row prediction of row `p` of the blocks. -/
theorem pay_apply (x0 x1 x2 : Vec Ideal S1024x128 .f32) (x3 : Vec Ideal S128x128 .f32) (x4 x5 : Vec Ideal S1x128 .f32)
    (x6 x7 : Vec Ideal S1x1 .f32) (x8 : Vec Ideal S128x512 .f32) (x9 : Vec Ideal S1x512 .f32)
    (x10 : Vec Ideal S512x256 .f32) (x11 : Vec Ideal S1x256 .f32) (x12 : Vec Ideal S256x128 .f32)
    (x13 : Vec Ideal S1x128 .f32) (x14 : Vec Ideal S128x1 .f32) (x15 : Vec Ideal S1x1 .f32) (p : Fin 1024) :
    k0_pay1 (k0_pay2 x0 x1 x2 x3 x4 x5 x6 x7 x8) x9 x10 x11 x12 x13 x14 x15 (ix2 p (0 : Fin 1))
      = rowOut (fun d => x0 (ix2 p d)) (fun d => x1 (ix2 p d)) (fun k => x2 (ix2 p k)) (fun k d => x3 (ix2 d k))
          (fun d => x4 (ix2 (0 : Fin 1) d)) (x6 (ix2 (0 : Fin 1) (0 : Fin 1)))
          (fun d => x5 (ix2 (0 : Fin 1) d)) (x7 (ix2 (0 : Fin 1) (0 : Fin 1)))
          (fun k q => x8 (ix2 k q)) (fun q => x9 (ix2 (0 : Fin 1) q))
          (fun q l => x10 (ix2 q l)) (fun l => x11 (ix2 (0 : Fin 1) l))
          (fun l j => x12 (ix2 l j)) (fun j => x13 (ix2 (0 : Fin 1) j))
          (fun j => x14 (ix2 j (0 : Fin 1))) (x15 (ix2 (0 : Fin 1) (0 : Fin 1))) := by
  unfold k0_pay1 k0_pay2 rowOut mlp state lin
  simp only [shapeCast_self, logistic_apply, tanh_apply, addf_apply, mulf_apply, subf_apply, truncf_apply, broadcast_apply,
    LibRows.broadcastTo_row_apply, LibRows.extractAt_1x1,
    LibDot.matmul_zero_rc_apply dot_S1024x128_S128x128_S1024x128_1_0_0_1_n_n rfl rfl rfl rfl rfl rfl,
    LibDot.matmul_zero_rc_apply dot_S1024x128_S128x512_S1024x512_1_0_0_1_n_n rfl rfl rfl rfl rfl rfl,
    LibDot.matmul_zero_rc_apply dot_S1024x512_S512x256_S1024x256_1_0_0_1_n_n rfl rfl rfl rfl rfl rfl,
    LibDot.matmul_zero_rc_apply dot_S1024x256_S256x128_S1024x128_1_0_0_1_n_n rfl rfl rfl rfl rfl rfl,
    LibDot.matmul_zero_rc_apply dot_S1024x128_S128x1_S1024x1_1_0_0_1_n_n rfl rfl rfl rfl rfl rfl]

end Cert.KernelIdeal.Block

end
-- ==== Proof.KernelWindows.lean ====
/- Each input window's block at a grid point, read off its array as the region finds it: the three batched windows
   stage rows 1024·t … 1024·t + 1023 at point t, and the thirteen others, whose index maps are constantly zero, stage
   their whole array at every point.  One lemma per window, all of one of two shapes. -/
import proofs.«156298_j56848187130407_1_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Windows

open Cert.KernelIdeal Cert.KernelIdeal.Gen

variable (m : (ℓ : Loc nD τ sig) → Buf (Elt Ideal) ℓ)

/-- Window 0's block at point `t`, entry (p, d), is entry (1024·t + p, d) of its array. -/
theorem blk0_apply (c : Dev nD) (t : Fin cfg0.N) (p : Fin 1024) (d : Fin 128) (r : Fin 8192) (hr : r.val = 1024 * t.val + p.val) :
    (iblk m c 0 t : Vec Ideal S1024x128 .f32) (ix2 p d) = (V m c main_v7 : S8192x128.Idx → EReal) (ix2 r d) := by
  obtain ⟨h0, h1⟩ := (by decide +kernel : ∀ t : Fin grid0.N, win0_0.index t (0 : Fin 2) = t.val ∧ win0_0.index t (1 : Fin 2) = 0) t
  unfold iblk
  rw [View.read_apply]
  show V m c main_v7 _ = V m c main_v7 _
  congr 1
  funext a
  apply Fin.ext
  match a with
  | ⟨0, _⟩ => show win0_0.index t (0 : Fin 2) * 1024 + 1 * p.val = r.val; rw [h0, hr]; omega
  | ⟨1, _⟩ => show win0_0.index t (1 : Fin 2) * 128 + 1 * d.val = d.val; rw [h1]; omega

/-- Window 1's block at point `t`, entry (p, d), is entry (1024·t + p, d) of its array. -/
theorem blk1_apply (c : Dev nD) (t : Fin cfg0.N) (p : Fin 1024) (d : Fin 128) (r : Fin 8192) (hr : r.val = 1024 * t.val + p.val) :
    (iblk m c 1 t : Vec Ideal S1024x128 .f32) (ix2 p d) = (V m c main_v14 : S8192x128.Idx → EReal) (ix2 r d) := by
  obtain ⟨h0, h1⟩ := (by decide +kernel : ∀ t : Fin grid0.N, win0_1.index t (0 : Fin 2) = t.val ∧ win0_1.index t (1 : Fin 2) = 0) t
  unfold iblk
  rw [View.read_apply]
  show V m c main_v14 _ = V m c main_v14 _
  congr 1
  funext a
  apply Fin.ext
  match a with
  | ⟨0, _⟩ => show win0_1.index t (0 : Fin 2) * 1024 + 1 * p.val = r.val; rw [h0, hr]; omega
  | ⟨1, _⟩ => show win0_1.index t (1 : Fin 2) * 128 + 1 * d.val = d.val; rw [h1]; omega

/-- Window 2's block at point `t`, entry (p, d), is entry (1024·t + p, d) of its array. -/
theorem blk2_apply (c : Dev nD) (t : Fin cfg0.N) (p : Fin 1024) (d : Fin 128) (r : Fin 8192) (hr : r.val = 1024 * t.val + p.val) :
    (iblk m c 2 t : Vec Ideal S1024x128 .f32) (ix2 p d) = (V m c main_arg3 : S8192x128.Idx → EReal) (ix2 r d) := by
  obtain ⟨h0, h1⟩ := (by decide +kernel : ∀ t : Fin grid0.N, win0_2.index t (0 : Fin 2) = t.val ∧ win0_2.index t (1 : Fin 2) = 0) t
  unfold iblk
  rw [View.read_apply]
  show V m c main_arg3 _ = V m c main_arg3 _
  congr 1
  funext a
  apply Fin.ext
  match a with
  | ⟨0, _⟩ => show win0_2.index t (0 : Fin 2) * 1024 + 1 * p.val = r.val; rw [h0, hr]; omega
  | ⟨1, _⟩ => show win0_2.index t (1 : Fin 2) * 128 + 1 * d.val = d.val; rw [h1]; omega

/-- Window 3's block at every point is its whole array. -/
theorem blk3_eq (c : Dev nD) (t : Fin cfg0.N) :
    (iblk m c 3 t : Vec Ideal S128x128 .f32) = (V m c main_v15 : S128x128.Idx → EReal) := by
  obtain ⟨h0, h1⟩ := (by decide +kernel : ∀ t : Fin grid0.N, win0_3.index t (0 : Fin 2) = 0 ∧ win0_3.index t (1 : Fin 2) = 0) t
  funext y
  unfold iblk
  rw [View.read_apply]
  show V m c main_v15 _ = V m c main_v15 _
  congr 1
  funext a
  apply Fin.ext
  match a with
  | ⟨0, _⟩ => show win0_3.index t (0 : Fin 2) * 128 + 1 * (y 0).val = (y 0).val; rw [h0]; omega
  | ⟨1, _⟩ => show win0_3.index t (1 : Fin 2) * 128 + 1 * (y 1).val = (y 1).val; rw [h1]; omega

/-- Window 4's block at every point is its whole array. -/
theorem blk4_eq (c : Dev nD) (t : Fin cfg0.N) :
    (iblk m c 4 t : Vec Ideal S1x128 .f32) = (V m c main_v16 : S1x128.Idx → EReal) := by
  obtain ⟨h0, h1⟩ := (by decide +kernel : ∀ t : Fin grid0.N, win0_4.index t (0 : Fin 2) = 0 ∧ win0_4.index t (1 : Fin 2) = 0) t
  funext y
  unfold iblk
  rw [View.read_apply]
  show V m c main_v16 _ = V m c main_v16 _
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 128 + 1 * (y 1).val = (y 1).val; rw [h1]; omega

/-- Window 5's block at every point is its whole array. -/
theorem blk5_eq (c : Dev nD) (t : Fin cfg0.N) :
    (iblk m c 5 t : Vec Ideal S1x128 .f32) = (V m c main_v17 : S1x128.Idx → EReal) := by
  obtain ⟨h0, h1⟩ := (by decide +kernel : ∀ t : Fin grid0.N, win0_5.index t (0 : Fin 2) = 0 ∧ win0_5.index t (1 : Fin 2) = 0) t
  funext y
  unfold iblk
  rw [View.read_apply]
  show V m c main_v17 _ = V m c main_v17 _
  congr 1
  funext a
  apply Fin.ext
  match a with
  | ⟨0, _⟩ => show win0_5.index t (0 : Fin 2) * 1 + 1 * (y 0).val = (y 0).val; rw [h0]; omega
  | ⟨1, _⟩ => show win0_5.index t (1 : Fin 2) * 128 + 1 * (y 1).val = (y 1).val; rw [h1]; omega

/-- Window 6's block at every point is its whole array. -/
theorem blk6_eq (c : Dev nD) (t : Fin cfg0.N) :
    (iblk m c 6 t : Vec Ideal S1x1 .f32) = (V m c main_v18 : S1x1.Idx → EReal) := by
  obtain ⟨h0, h1⟩ := (by decide +kernel : ∀ t : Fin grid0.N, win0_6.index t (0 : Fin 2) = 0 ∧ win0_6.index t (1 : Fin 2) = 0) t
  funext y
  unfold iblk
  rw [View.read_apply]
  show V m c main_v18 _ = V m c main_v18 _
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 1 + 1 * (y 1).val = (y 1).val; rw [h1]; omega

/-- Window 7's block at every point is its whole array. -/
theorem blk7_eq (c : Dev nD) (t : Fin cfg0.N) :
    (iblk m c 7 t : Vec Ideal S1x1 .f32) = (V m c main_v19 : S1x1.Idx → EReal) := by
  obtain ⟨h0, h1⟩ := (by decide +kernel : ∀ t : Fin grid0.N, win0_7.index t (0 : Fin 2) = 0 ∧ win0_7.index t (1 : Fin 2) = 0) t
  funext y
  unfold iblk
  rw [View.read_apply]
  show V m c main_v19 _ = V m c main_v19 _
  congr 1
  funext a
  apply Fin.ext
  match a with
  | ⟨0, _⟩ => show win0_7.index t (0 : Fin 2) * 1 + 1 * (y 0).val = (y 0).val; rw [h0]; omega
  | ⟨1, _⟩ => show win0_7.index t (1 : Fin 2) * 1 + 1 * (y 1).val = (y 1).val; rw [h1]; omega

/-- Window 8's block at every point is its whole array. -/
theorem blk8_eq (c : Dev nD) (t : Fin cfg0.N) :
    (iblk m c 8 t : Vec Ideal S128x512 .f32) = (V m c main_arg8 : S128x512.Idx → EReal) := by
  obtain ⟨h0, h1⟩ := (by decide +kernel : ∀ t : Fin grid0.N, win0_8.index t (0 : Fin 2) = 0 ∧ win0_8.index t (1 : Fin 2) = 0) t
  funext y
  unfold iblk
  rw [View.read_apply]
  show V m c main_arg8 _ = V m c main_arg8 _
  congr 1
  funext a
  apply Fin.ext
  match a with
  | ⟨0, _⟩ => show win0_8.index t (0 : Fin 2) * 128 + 1 * (y 0).val = (y 0).val; rw [h0]; omega
  | ⟨1, _⟩ => show win0_8.index t (1 : Fin 2) * 512 + 1 * (y 1).val = (y 1).val; rw [h1]; omega

/-- Window 9's block at every point is its whole array. -/
theorem blk9_eq (c : Dev nD) (t : Fin cfg0.N) :
    (iblk m c 9 t : Vec Ideal S1x512 .f32) = (V m c main_v20 : S1x512.Idx → EReal) := by
  obtain ⟨h0, h1⟩ := (by decide +kernel : ∀ t : Fin grid0.N, win0_9.index t (0 : Fin 2) = 0 ∧ win0_9.index t (1 : Fin 2) = 0) t
  funext y
  unfold iblk
  rw [View.read_apply]
  show V m c main_v20 _ = V m c main_v20 _
  congr 1
  funext a
  apply Fin.ext
  match a with
  | ⟨0, _⟩ => show win0_9.index t (0 : Fin 2) * 1 + 1 * (y 0).val = (y 0).val; rw [h0]; omega
  | ⟨1, _⟩ => show win0_9.index t (1 : Fin 2) * 512 + 1 * (y 1).val = (y 1).val; rw [h1]; omega

/-- Window 10's block at every point is its whole array. -/
theorem blk10_eq (c : Dev nD) (t : Fin cfg0.N) :
    (iblk m c 10 t : Vec Ideal S512x256 .f32) = (V m c main_arg10 : S512x256.Idx → EReal) := by
  obtain ⟨h0, h1⟩ := (by decide +kernel : ∀ t : Fin grid0.N, win0_10.index t (0 : Fin 2) = 0 ∧ win0_10.index t (1 : Fin 2) = 0) t
  funext y
  unfold iblk
  rw [View.read_apply]
  show V m c main_arg10 _ = V m c main_arg10 _
  congr 1
  funext a
  apply Fin.ext
  match a with
  | ⟨0, _⟩ => show win0_10.index t (0 : Fin 2) * 512 + 1 * (y 0).val = (y 0).val; rw [h0]; omega
  | ⟨1, _⟩ => show win0_10.index t (1 : Fin 2) * 256 + 1 * (y 1).val = (y 1).val; rw [h1]; omega

/-- Window 11's block at every point is its whole array. -/
theorem blk11_eq (c : Dev nD) (t : Fin cfg0.N) :
    (iblk m c 11 t : Vec Ideal S1x256 .f32) = (V m c main_v21 : S1x256.Idx → EReal) := by
  obtain ⟨h0, h1⟩ := (by decide +kernel : ∀ t : Fin grid0.N, win0_11.index t (0 : Fin 2) = 0 ∧ win0_11.index t (1 : Fin 2) = 0) t
  funext y
  unfold iblk
  rw [View.read_apply]
  show V m c main_v21 _ = V m c main_v21 _
  congr 1
  funext a
  apply Fin.ext
  match a with
  | ⟨0, _⟩ => show win0_11.index t (0 : Fin 2) * 1 + 1 * (y 0).val = (y 0).val; rw [h0]; omega
  | ⟨1, _⟩ => show win0_11.index t (1 : Fin 2) * 256 + 1 * (y 1).val = (y 1).val; rw [h1]; omega

/-- Window 12's block at every point is its whole array. -/
theorem blk12_eq (c : Dev nD) (t : Fin cfg0.N) :
    (iblk m c 12 t : Vec Ideal S256x128 .f32) = (V m c main_arg12 : S256x128.Idx → EReal) := by
  obtain ⟨h0, h1⟩ := (by decide +kernel : ∀ t : Fin grid0.N, win0_12.index t (0 : Fin 2) = 0 ∧ win0_12.index t (1 : Fin 2) = 0) t
  funext y
  unfold iblk
  rw [View.read_apply]
  show V m c main_arg12 _ = V m c main_arg12 _
  congr 1
  funext a
  apply Fin.ext
  match a with
  | ⟨0, _⟩ => show win0_12.index t (0 : Fin 2) * 256 + 1 * (y 0).val = (y 0).val; rw [h0]; omega
  | ⟨1, _⟩ => show win0_12.index t (1 : Fin 2) * 128 + 1 * (y 1).val = (y 1).val; rw [h1]; omega

/-- Window 13's block at every point is its whole array. -/
theorem blk13_eq (c : Dev nD) (t : Fin cfg0.N) :
    (iblk m c 13 t : Vec Ideal S1x128 .f32) = (V m c main_v22 : S1x128.Idx → EReal) := by
  obtain ⟨h0, h1⟩ := (by decide +kernel : ∀ t : Fin grid0.N, win0_13.index t (0 : Fin 2) = 0 ∧ win0_13.index t (1 : Fin 2) = 0) t
  funext y
  unfold iblk
  rw [View.read_apply]
  show V m c main_v22 _ = V m c main_v22 _
  congr 1
  funext a
  apply Fin.ext
  match a with
  | ⟨0, _⟩ => show win0_13.index t (0 : Fin 2) * 1 + 1 * (y 0).val = (y 0).val; rw [h0]; omega
  | ⟨1, _⟩ => show win0_13.index t (1 : Fin 2) * 128 + 1 * (y 1).val = (y 1).val; rw [h1]; omega

/-- Window 14's block at every point is its whole array. -/
theorem blk14_eq (c : Dev nD) (t : Fin cfg0.N) :
    (iblk m c 14 t : Vec Ideal S128x1 .f32) = (V m c main_arg14 : S128x1.Idx → EReal) := by
  obtain ⟨h0, h1⟩ := (by decide +kernel : ∀ t : Fin grid0.N, win0_14.index t (0 : Fin 2) = 0 ∧ win0_14.index t (1 : Fin 2) = 0) t
  funext y
  unfold iblk
  rw [View.read_apply]
  show V m c main_arg14 _ = V m c main_arg14 _
  congr 1
  funext a
  apply Fin.ext
  match a with
  | ⟨0, _⟩ => show win0_14.index t (0 : Fin 2) * 128 + 1 * (y 0).val = (y 0).val; rw [h0]; omega
  | ⟨1, _⟩ => show win0_14.index t (1 : Fin 2) * 1 + 1 * (y 1).val = (y 1).val; rw [h1]; omega

/-- Window 15's block at every point is its whole array. -/
theorem blk15_eq (c : Dev nD) (t : Fin cfg0.N) :
    (iblk m c 15 t : Vec Ideal S1x1 .f32) = (V m c main_v23 : S1x1.Idx → EReal) := by
  obtain ⟨h0, h1⟩ := (by decide +kernel : ∀ t : Fin grid0.N, win0_15.index t (0 : Fin 2) = 0 ∧ win0_15.index t (1 : Fin 2) = 0) t
  funext y
  unfold iblk
  rw [View.read_apply]
  show V m c main_v23 _ = V m c main_v23 _
  congr 1
  funext a
  apply Fin.ext
  match a with
  | ⟨0, _⟩ => show win0_15.index t (0 : Fin 2) * 1 + 1 * (y 0).val = (y 0).val; rw [h0]; omega
  | ⟨1, _⟩ => show win0_15.index t (1 : Fin 2) * 1 + 1 * (y 1).val = (y 1).val; rw [h1]; omega

end Cert.KernelIdeal.Windows

end
-- ==== Proof.KernelValue.lean ====
/-
  The kernel's result as one function of its argument arrays.

  The grid has eight points; point t stages rows 1024·t … 1024·t + 1023 of the two gathered embedding matrices and of the
  relevance matrix, and the whole of every other operand (their index maps are constantly zero), and writes back rows
  1024·t … 1024·t + 1023 of the 8192×1 result column.  So entry (r, 0) of the column is the per-row prediction of row r of
  the three batched matrices: the blocks of the eight points tile the column, and what point t writes back is the
  corresponding block of that one column function.  The line after the region views the column as a vector, and the
  lines before it gather the embedding rows, cut the concept rows out of the embedding table and transpose them, and
  re-lay each weight vector as a row and each scalar as a 1×1 block; read back through those re-layings the column is the
  specification's batch function of the launch contents.
-/
import proofs.«156298_j56848187130407_1_alg».proof.Proof.Gen.KernelIdeal.Frame
import proofs.«156298_j56848187130407_1_alg».proof.Proof.KernelBlock
import proofs.«156298_j56848187130407_1_alg».proof.Proof.KernelWindows
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Windows Cert.Spec

variable (m : (ℓ : Loc nD τ sig) → Buf (Elt Ideal) ℓ) (ρ : Dev nD → PrngReg)

theorem hz : (![0, 0] : Fin 2 → Nat) = fun _ => 0 := funext fun a => by fin_cases a <;> rfl

/-! ## The result column -/

/-- Row `r` of the result column, from the arrays as the region finds them. -/
def colAt (c : Dev nD) (r : Fin 8192) : EReal :=
  rowOut (fun d => (V m c main_v7 : S8192x128.Idx → EReal) (ix2 r d)) (fun d => (V m c main_v14 : S8192x128.Idx → EReal) (ix2 r d))
    (fun k => (V m c main_arg3 : S8192x128.Idx → EReal) (ix2 r k)) (fun k d => (V m c main_v15 : S128x128.Idx → EReal) (ix2 d k))
    (fun d => (V m c main_v16 : S1x128.Idx → EReal) (ix2 (0 : Fin 1) d)) ((V m c main_v18 : S1x1.Idx → EReal) (ix2 (0 : Fin 1) (0 : Fin 1)))
    (fun d => (V m c main_v17 : S1x128.Idx → EReal) (ix2 (0 : Fin 1) d)) ((V m c main_v19 : S1x1.Idx → EReal) (ix2 (0 : Fin 1) (0 : Fin 1)))
    (fun k q => (V m c main_arg8 : S128x512.Idx → EReal) (ix2 k q)) (fun q => (V m c main_v20 : S1x512.Idx → EReal) (ix2 (0 : Fin 1) q))
    (fun q l => (V m c main_arg10 : S512x256.Idx → EReal) (ix2 q l)) (fun l => (V m c main_v21 : S1x256.Idx → EReal) (ix2 (0 : Fin 1) l))
    (fun l j => (V m c main_arg12 : S256x128.Idx → EReal) (ix2 l j)) (fun j => (V m c main_v22 : S1x128.Idx → EReal) (ix2 (0 : Fin 1) j))
    (fun j => (V m c main_arg14 : S128x1.Idx → EReal) (ix2 j (0 : Fin 1))) ((V m c main_v23 : S1x1.Idx → EReal) (ix2 (0 : Fin 1) (0 : Fin 1)))

/-- The result column: entry (r, 0) is row r's prediction. -/
def col (c : Dev nD) : S8192x1.Idx → EReal := fun i => colAt m c ⟨(i 0).val, idx2_lt0 i⟩

/-- The output window's index map: point t writes block row t. -/
theorem idx16 : ∀ t : Fin cfg0.N, win0_16.index t (0 : Fin 2) = t.val ∧ win0_16.index t (1 : Fin 2) = 0 :=
  (by decide +kernel : ∀ t : Fin grid0.N, _)

/-- What point `t` writes back is block `t` of the column. -/
theorem flushed16_eq (c : Dev nD) (t : Fin cfg0.N) :
    (dats m 0 c).flushed 16 t = ((cfg0.win 16).blk t).view.read (Elt Ideal) (col m c) := by
  obtain ⟨h0, h1⟩ := idx16 t
  have ht : t.val < 8 := lt_of_lt_of_eq t.isLt N_0
  show (cfg0.win 16).cut (grid0.coords t) ((dats m 0 c).after 16 t) = _
  rw [after0_16]
  unfold out0_16
  rw [View.canon_unit_zero hz]
  simp only [View.ld_unit_zero (S := S1024x128) hz, View.ld_unit_zero (S := S128x128) hz, View.ld_unit_zero (S := S1x128) hz,
    View.ld_unit_zero (S := S1x1) hz, View.ld_unit_zero (S := S128x512) hz, View.ld_unit_zero (S := S1x512) hz,
    View.ld_unit_zero (S := S512x256) hz, View.ld_unit_zero (S := S1x256) hz, View.ld_unit_zero (S := S256x128) hz,
    View.ld_unit_zero (S := S128x1) hz]
  funext y
  have hp : (y 0).val < 1024 := (y 0).isLt
  have hq : (y 1).val < 1 := (y 1).isLt
  have hx : (cfg0.win 16).xinj (grid0.coords t) y = ix2 (⟨(y 0).val, hp⟩ : Fin 1024) (0 : Fin 1) := funext fun a => Fin.ext (by
    match a with
    | ⟨0, _⟩ => rfl
    | ⟨1, _⟩ => show (y 1).val = 0; omega)
  have hr : (⟨1024 * t.val + (y 0).val, by omega⟩ : Fin 8192).val = 1024 * t.val + (⟨(y 0).val, hp⟩ : Fin 1024).val := rfl
  rw [View.read_apply]
  show k0_pay1 (k0_pay2 (iblk m c 0 t) (iblk m c 1 t) (iblk m c 2 t) (iblk m c 3 t) (iblk m c 4 t) (iblk m c 5 t) (iblk m c 6 t) (iblk m c 7 t) (iblk m c 8 t)) (iblk m c 9 t) (iblk m c 10 t) (iblk m c 11 t) (iblk m c 12 t) (iblk m c 13 t) (iblk m c 14 t) (iblk m c 15 t) ((cfg0.win 16).xinj (grid0.coords t) y) = col m c (((cfg0.win 16).blk t).view.emb y)
  rw [hx]
  refine (Block.pay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) ⟨(y 0).val, hp⟩).trans ?_
  have e0 : (fun d => (iblk m c 0 t : Vec Ideal S1024x128 .f32) (ix2 (⟨(y 0).val, hp⟩ : Fin 1024) d)) = fun d => (V m c main_v7 : S8192x128.Idx → EReal) (ix2 (⟨1024 * t.val + (y 0).val, by omega⟩ : Fin 8192) d) :=
    funext fun d => blk0_apply m c t _ d _ hr
  have e1 : (fun d => (iblk m c 1 t : Vec Ideal S1024x128 .f32) (ix2 (⟨(y 0).val, hp⟩ : Fin 1024) d)) = fun d => (V m c main_v14 : S8192x128.Idx → EReal) (ix2 (⟨1024 * t.val + (y 0).val, by omega⟩ : Fin 8192) d) :=
    funext fun d => blk1_apply m c t _ d _ hr
  have e2 : (fun d => (iblk m c 2 t : Vec Ideal S1024x128 .f32) (ix2 (⟨(y 0).val, hp⟩ : Fin 1024) d)) = fun d => (V m c main_arg3 : S8192x128.Idx → EReal) (ix2 (⟨1024 * t.val + (y 0).val, by omega⟩ : Fin 8192) d) :=
    funext fun d => blk2_apply m c t _ d _ hr
  rw [e0, e1, e2, blk3_eq m c t, blk4_eq m c t, blk5_eq m c t, blk6_eq m c t, blk7_eq m c t, blk8_eq m c t, blk9_eq m c t, blk10_eq m c t, blk11_eq m c t, blk12_eq m c t, blk13_eq m c t, blk14_eq m c t, blk15_eq m c t]
  unfold col colAt
  have hrow : (⟨((((cfg0.win 16).blk t).view.emb y) 0).val, idx2_lt0 _⟩ : Fin 8192) = ⟨1024 * t.val + (y 0).val, by omega⟩ :=
    Fin.ext (by show win0_16.index t (0 : Fin 2) * 1024 + 1 * (y 0).val = 1024 * t.val + (y 0).val; rw [h0]; omega)
  rw [hrow]

/-- An entry of the column lies in point `t`'s block iff its coordinates lie in the block's ranges. -/
theorem mem_blk16 (t : Fin cfg0.N) (i : S8192x1.Idx) :
    i ∈ ((cfg0.win 16).blk t).view.set ↔ ∀ a : Fin 2, win0_16.index t a * S1024x1.size a ≤ (i a).val ∧ (i a).val < win0_16.index t a * S1024x1.size a + S1024x1.size a := by
  show i ∈ ((View.whole main_v24).slice (win0_16.rect t)).set ↔ _
  rw [View.set_slice_whole, Rect.mem_set_unit]
  exact Iff.rfl

/-- The eight blocks tile the column, so after the region the column's array holds the column function. -/
theorem final16 (c : Dev nD) : (dats m 0 c).arrAt 16 cfg0.N = col m c :=
  (dats m 0 c).arrAt_eq_of_cover 16 (col m c) (fun t _ => flushed16_eq m c t) fun i => by
    have hi0 : (i 0).val < 8192 := (i 0).isLt
    have hi1 : (i 1).val < 1 := (i 1).isLt
    have hN : cfg0.N = 8 := N_0
    refine ⟨⟨(i 0).val / 1024, by rw [hN]; omega⟩, flush0_16 _, ?_⟩
    rw [mem_blk16]
    obtain ⟨h0, h1⟩ := idx16 ⟨(i 0).val / 1024, by rw [hN]; omega⟩
    intro a
    match a with
    | ⟨0, _⟩ =>
      show win0_16.index _ (0 : Fin 2) * 1024 ≤ (i 0).val ∧ (i 0).val < win0_16.index _ (0 : Fin 2) * 1024 + 1024
      rw [h0]; show (i 0).val / 1024 * 1024 ≤ (i 0).val ∧ (i 0).val < (i 0).val / 1024 * 1024 + 1024; omega
    | ⟨1, _⟩ =>
      show win0_16.index _ (1 : Fin 2) * 1 ≤ (i 1).val ∧ (i 1).val < win0_16.index _ (1 : Fin 2) * 1 + 1
      rw [h1]; omega

/-! ## The lines before the region -/

/-- The rows of the embedding table that an index vector selects (an index below zero counts from the table's end). -/
def gatherRows (x0 : S120128x128.Idx → EReal) (x1 : S8192.Idx → BitVec 32) : S8192x128.Idx → EReal :=
  Host.gather gather_S120128x128_S8192x1_S8192x128_1_0_n_n_0_1_1128 x0
    (broadcastInDim S8192x1 ![0] bcast_S8192_S8192x1_0
      (select (cmpi .slt x1 (broadcastInDim S8192 ![] bcast_S_S8192 (constantI S_ 32 0#32)))
        (addi x1 (broadcastInDim S8192 ![] bcast_S_S8192 (constantI S_ 32 120128#32))) x1))

/-- The last 128 rows of the embedding table: the knowledge concepts' embeddings. -/
def conceptRows (x0 : S120128x128.Idx → EReal) : S128x128.Idx → EReal :=
  extractStridedSlice S128x128 ![120000, 0] x0 slices_S120128x128_S128x128_120000_0

theorem V_v7 (c : Dev nD) : (V m c main_v7 : S8192x128.Idx → EReal) = gatherRows (m ((c : Thread nD τ).loc main_arg0)) (m ((c : Thread nD τ).loc main_arg1)) := by
  show StableHlo.after hostOps0 (fun b => m (c, b)) (Proc.devRef .tc main_v7) = _
  after_results
  rfl

theorem V_v14 (c : Dev nD) : (V m c main_v14 : S8192x128.Idx → EReal) = gatherRows (m ((c : Thread nD τ).loc main_arg0)) (m ((c : Thread nD τ).loc main_arg2)) := by
  show StableHlo.after hostOps0 (fun b => m (c, b)) (Proc.devRef .tc main_v14) = _
  after_results
  rfl

theorem V_v15 (c : Dev nD) : (V m c main_v15 : S128x128.Idx → EReal)
    = transpose S128x128 [1, 0] (conceptRows (m ((c : Thread nD τ).loc main_arg0))) transposes_S128x128_S128x128_1_0 := by
  show StableHlo.after hostOps0 (fun b => m (c, b)) (Proc.devRef .tc main_v15) = _
  after_results
  rfl

theorem V_v16 (c : Dev nD) : (V m c main_v16 : S1x128.Idx → EReal) = shapeCast S1x128 (m ((c : Thread nD τ).loc main_arg4)) shapeCasts_S128_S1x128 := by
  show StableHlo.after hostOps0 (fun b => m (c, b)) (Proc.devRef .tc main_v16) = _
  after_results
  rfl

theorem V_v17 (c : Dev nD) : (V m c main_v17 : S1x128.Idx → EReal) = shapeCast S1x128 (m ((c : Thread nD τ).loc main_arg6)) shapeCasts_S128_S1x128 := by
  show StableHlo.after hostOps0 (fun b => m (c, b)) (Proc.devRef .tc main_v17) = _
  after_results
  rfl

theorem V_v18 (c : Dev nD) : (V m c main_v18 : S1x1.Idx → EReal) = shapeCast S1x1 (m ((c : Thread nD τ).loc main_arg5)) shapeCasts_S_S1x1 := by
  show StableHlo.after hostOps0 (fun b => m (c, b)) (Proc.devRef .tc main_v18) = _
  after_results
  rfl

theorem V_v19 (c : Dev nD) : (V m c main_v19 : S1x1.Idx → EReal) = shapeCast S1x1 (m ((c : Thread nD τ).loc main_arg7)) shapeCasts_S_S1x1 := by
  show StableHlo.after hostOps0 (fun b => m (c, b)) (Proc.devRef .tc main_v19) = _
  after_results
  rfl

theorem V_v20 (c : Dev nD) : (V m c main_v20 : S1x512.Idx → EReal) = shapeCast S1x512 (m ((c : Thread nD τ).loc main_arg9)) shapeCasts_S512_S1x512 := by
  show StableHlo.after hostOps0 (fun b => m (c, b)) (Proc.devRef .tc main_v20) = _
  after_results
  rfl

theorem V_v21 (c : Dev nD) : (V m c main_v21 : S1x256.Idx → EReal) = shapeCast S1x256 (m ((c : Thread nD τ).loc main_arg11)) shapeCasts_S256_S1x256 := by
  show StableHlo.after hostOps0 (fun b => m (c, b)) (Proc.devRef .tc main_v21) = _
  after_results
  rfl

theorem V_v22 (c : Dev nD) : (V m c main_v22 : S1x128.Idx → EReal) = shapeCast S1x128 (m ((c : Thread nD τ).loc main_arg13)) shapeCasts_S128_S1x128 := by
  show StableHlo.after hostOps0 (fun b => m (c, b)) (Proc.devRef .tc main_v22) = _
  after_results
  rfl

theorem V_v23 (c : Dev nD) : (V m c main_v23 : S1x1.Idx → EReal) = shapeCast S1x1 (m ((c : Thread nD τ).loc main_arg15)) shapeCasts_S1_S1x1 := by
  show StableHlo.after hostOps0 (fun b => m (c, b)) (Proc.devRef .tc main_v23) = _
  after_results
  rfl

/-- Row `r` of the column is entry `r` of the specification's batch function of the launch contents. -/
theorem colAt_eq (c : Dev nD) (r : Fin 8192) :
    colAt m c r = batchOut (gatherRows (m ((c : Thread nD τ).loc main_arg0)) (m ((c : Thread nD τ).loc main_arg1))) (gatherRows (m ((c : Thread nD τ).loc main_arg0)) (m ((c : Thread nD τ).loc main_arg2))) (m ((c : Thread nD τ).loc main_arg3))
        (conceptRows (m ((c : Thread nD τ).loc main_arg0))) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15)) (ix1 r) := by
  unfold colAt batchOut
  rw [V_v7, V_v14, V_main_arg3, V_v15, V_v16, V_v17, V_v18, V_v19, V_main_arg8, V_v20, V_main_arg10, V_v21, V_main_arg12, V_v22,
    V_main_arg14, V_v23]
  have hkn : (fun (k d : Fin 128) => transpose S128x128 [1, 0] (conceptRows (m ((c : Thread nD τ).loc main_arg0))) transposes_S128x128_S128x128_1_0 (ix2 d k))
      = fun k d => conceptRows (m ((c : Thread nD τ).loc main_arg0)) (ix2 k d) := funext fun k => funext fun d => transpose_ix2_apply _ _ d k
  have hws : (fun d : Fin 128 => shapeCast S1x128 (m ((c : Thread nD τ).loc main_arg4)) shapeCasts_S128_S1x128 (ix2 (0 : Fin 1) d)) = fun d => (m ((c : Thread nD τ).loc main_arg4)) (ix1 d) :=
    funext fun d => shapeCast_a_1a_apply _ _ 0 d
  have hwk : (fun d : Fin 128 => shapeCast S1x128 (m ((c : Thread nD τ).loc main_arg6)) shapeCasts_S128_S1x128 (ix2 (0 : Fin 1) d)) = fun d => (m ((c : Thread nD τ).loc main_arg6)) (ix1 d) :=
    funext fun d => shapeCast_a_1a_apply _ _ 0 d
  have hb1 : (fun q : Fin 512 => shapeCast S1x512 (m ((c : Thread nD τ).loc main_arg9)) shapeCasts_S512_S1x512 (ix2 (0 : Fin 1) q)) = fun q => (m ((c : Thread nD τ).loc main_arg9)) (ix1 q) :=
    funext fun q => shapeCast_a_1a_apply _ _ 0 q
  have hb2 : (fun l : Fin 256 => shapeCast S1x256 (m ((c : Thread nD τ).loc main_arg11)) shapeCasts_S256_S1x256 (ix2 (0 : Fin 1) l)) = fun l => (m ((c : Thread nD τ).loc main_arg11)) (ix1 l) :=
    funext fun l => shapeCast_a_1a_apply _ _ 0 l
  have hb3 : (fun j : Fin 128 => shapeCast S1x128 (m ((c : Thread nD τ).loc main_arg13)) shapeCasts_S128_S1x128 (ix2 (0 : Fin 1) j)) = fun j => (m ((c : Thread nD τ).loc main_arg13)) (ix1 j) :=
    funext fun j => shapeCast_a_1a_apply _ _ 0 j
  rw [hkn, hws, hwk, hb1, hb2, hb3, LibRows.shapeCast_scalar_1x1_apply (m ((c : Thread nD τ).loc main_arg5)), LibRows.shapeCast_scalar_1x1_apply (m ((c : Thread nD τ).loc main_arg7)),
    shapeCast_a_1a_apply (m ((c : Thread nD τ).loc main_arg15)) shapeCasts_S1_S1x1 (0 : Fin 1) (0 : Fin 1)]

/-! ## The line after the region, and the run -/

/-- The column viewed as a vector is the batch function. -/
theorem vec_eq (c : Dev nD) :
    shapeCast S8192 (col m c) shapeCasts_S8192x1_S8192 = batchOut (gatherRows (m ((c : Thread nD τ).loc main_arg0)) (m ((c : Thread nD τ).loc main_arg1))) (gatherRows (m ((c : Thread nD τ).loc main_arg0)) (m ((c : Thread nD τ).loc main_arg2))) (m ((c : Thread nD τ).loc main_arg3))
        (conceptRows (m ((c : Thread nD τ).loc main_arg0))) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15)) := by
  funext i
  obtain ⟨r, rfl⟩ : ∃ r : Fin 8192, i = ix1 r := ⟨i 0, eq_ix1 i⟩
  rw [LibRows.shapeCast_col_vec_apply]
  exact colAt_eq m c r

/-- What the line after the region leaves in the result buffer. -/
theorem tail25 (c : Dev nD) :
    Pipeline.afterTail₀ cfgs (dats m) 0 (V0 m) [hostOps1] c main_v25 = shapeCast S8192 (col m c) shapeCasts_S8192x1_S8192 := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v24) = col m c :=
    (Pipeline.withArrays_arr spec0 launch0.win.arr_inj c _ _ 16).trans (final16 m c)
  rw [e]
  rfl

/-- Every weakly fair execution of the idealized kernel's program terminates with the result buffer at the batch function
    of the launch contents, and the arguments unchanged. -/
theorem run : θ_run defs (onTc (τ := τ) (main (F := Ideal))) ⟨m, fun _ => 0, ρ⟩ fun r => ∀ c : Dev nD,
      r.2.mem ((c.tc : Thread nD τ).loc main_v25) = batchOut (gatherRows (m ((c : Thread nD τ).loc main_arg0)) (m ((c : Thread nD τ).loc main_arg1))) (gatherRows (m ((c : Thread nD τ).loc main_arg0)) (m ((c : Thread nD τ).loc main_arg2))) (m ((c : Thread nD τ).loc main_arg3))
        (conceptRows (m ((c : Thread nD τ).loc main_arg0))) (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(((h c).2 main_v25 (Pipeline.mem_restRefs_of main_v25 (by decide) (by decide))).trans (tail25 m c)).trans (vec_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c),
      ((h c).1 12).trans (((dats m 0 c).arrAt_in 12 rfl _).trans ((A_eq m c 12).trans (V_main_arg12 m c))),
      ((h c).2 main_arg13 (Pipeline.mem_restRefs_of main_arg13 (by decide) (by decide))).trans (W_main_arg13 m (dats m) c),
      ((h c).1 14).trans (((dats m 0 c).arrAt_in 14 rfl _).trans ((A_eq m c 14).trans (V_main_arg14 m c))),
      ((h c).2 main_arg15 (Pipeline.mem_restRefs_of main_arg15 (by decide) (by decide))).trans (W_main_arg15 m (dats m) c)⟩)
    (run_main m ρ)

end Cert.KernelIdeal.KValue

end
-- ==== Proof.RefValue.lean ====
/-
  The reference's result as the batch function of its arguments.

  The reference computes, on whole 8192-row matrices, the same chain as the specification's row function: the gathered
  embeddings times the weight row, a product with the concept matrix contracted over BOTH operands' columns (entry
  (r, k) is ∑_d (e (r, d) · w d) · kn (k, d)), the offset, the logistic function spelt 1 / (1 + exp (−x)) — which is the
  logistic function's definition on the extended reals, the literal 1.0 being the real 1 —, the difference, the product
  with the relevance matrix, and four products with weight matrices contracted rows-by-columns, each followed by its
  bias row copied down the rows and by tanh or the logistic function; last, the 8192×1 column is viewed as a vector.
  Read at entry r, each step is the row function's step of row r.
-/
import proofs.«156298_j56848187130407_1_alg».proof.Proof.Gen.ReferenceIdeal.Run
import proofs.«156298_j56848187130407_1_alg».proof.Proof.Gen.ReferenceIdeal.Read
import proofs.«156298_j56848187130407_1_alg».proof.Proof.LibDot
import proofs.«156298_j56848187130407_1_alg».proof.Proof.LibRows
import proofs.«156298_j56848187130407_1_alg».proof.Proof.Spec
import Idealize.ShloMosaic.Lib.IdealHost

noncomputable section

open Idealize.ShloMosaic Idealize.ShloMosaic.ValueIdx

namespace Cert.ReferenceIdeal.RefValue

open Cert.ReferenceIdeal Cert.ReferenceIdeal.Gen Cert.ReferenceIdeal.Read Cert.Spec

theorem hostTanh_apply {s : Shape} {φ : FTy} (x : FVec Ideal s φ) (i : s.Idx) : Host.tanh x i = Ideal.tanh (x i) := rfl
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-- 1 / (1 + e^(−x)) is the logistic function. -/
theorem logistic_spelt (x : EReal) : Ideal.div 1 (1 + Ideal.exp (-x)) = Ideal.logistic x := rfl

/-- The reference's result is the batch function of the gathered embeddings, the relevance matrix, the concept rows of
    the embedding table and the weights. -/
theorem result_eq (x0 : (⟨S120128x128, .f32⟩ : BufTy).Contents (Elt Ideal)) (x1 x2 : (⟨S8192, .i32⟩ : BufTy).Contents (Elt Ideal))
    (x3 : (⟨S8192x128, .f32⟩ : BufTy).Contents (Elt Ideal)) (x4 : (⟨S128, .f32⟩ : BufTy).Contents (Elt Ideal))
    (x5 : (⟨S_, .f32⟩ : BufTy).Contents (Elt Ideal)) (x6 : (⟨S128, .f32⟩ : BufTy).Contents (Elt Ideal))
    (x7 : (⟨S_, .f32⟩ : BufTy).Contents (Elt Ideal)) (x8 : (⟨S128x512, .f32⟩ : BufTy).Contents (Elt Ideal))
    (x9 : (⟨S512, .f32⟩ : BufTy).Contents (Elt Ideal)) (x10 : (⟨S512x256, .f32⟩ : BufTy).Contents (Elt Ideal))
    (x11 : (⟨S256, .f32⟩ : BufTy).Contents (Elt Ideal)) (x12 : (⟨S256x128, .f32⟩ : BufTy).Contents (Elt Ideal))
    (x13 : (⟨S128, .f32⟩ : BufTy).Contents (Elt Ideal)) (x14 : (⟨S128x1, .f32⟩ : BufTy).Contents (Elt Ideal))
    (x15 : (⟨S1, .f32⟩ : BufTy).Contents (Elt Ideal)) :
    val_main_v66 (F := Ideal) x0 x1 x2 x3 x4 x5 x6 x7 x8 x9 x10 x11 x12 x13 x14 x15
      = batchOut (val_main_v7 (F := Ideal) x0 x1) (val_main_v14 (F := Ideal) x0 x2) x3 (val_main_v0 (F := Ideal) x0)
          x4 x5 x6 x7 x8 x9 x10 x11 x12 x13 x14 x15 := by
  funext i
  obtain ⟨r, rfl⟩ : ∃ r : Fin 8192, i = ix1 r := ⟨i 0, eq_ix1 i⟩
  have hr0 : (ix1 r : (⟨1, ![8192]⟩ : Shape).Idx) 0 = r := rfl
  unfold batchOut rowOut mlp state lin
  rw [hr0]
  simp only [val_main_cst_7, val_main_cst_6, val_main_cst_5, val_main_cst_4, val_main_cst_3, val_main_cst, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15]
  rw [LibRows.broadcastInDim_vec_rows_eq x4, LibRows.broadcastInDim_vec_rows_eq x6, LibRows.broadcastInDim_vec_rows_eq x9,
    LibRows.broadcastInDim_vec_rows_eq x11, LibRows.broadcastInDim_vec_rows_eq x13, LibRows.broadcastInDim_vec_rows_eq x15,
    LibRows.broadcastInDim_scalar_eq bcast_S_S8192x128 x5, LibRows.broadcastInDim_scalar_eq bcast_S_S8192x128 x7,
    LibRows.broadcastInDim_scalar_eq bcast_S_S8192x128 (constant S_ .f32 0x3F800000#32),
    LibRows.broadcastInDim_scalar_eq bcast_S_S8192x1 (constant S_ .f32 0x3F800000#32)]
  simp only [LibRows.shapeCast_col_vec_apply, hostDivf_apply, hostTanh_apply, hostExp_apply, hostNegf_apply,
    addf_apply, mulf_apply, subf_apply, constant_apply, Ideal.ofBits_one_f32, LibRows.rowCopy_apply, LibRows.splat_apply,
    logistic_spelt,
    LibDot.dotGeneral_rr_apply dot_S8192x128_S128x128_S8192x128_1_1_0_0_n_n rfl rfl rfl rfl rfl rfl,
    LibDot.dotGeneral_rc_apply dot_S8192x128_S128x512_S8192x512_1_0_0_1_n_n rfl rfl rfl rfl rfl rfl,
    LibDot.dotGeneral_rc_apply dot_S8192x512_S512x256_S8192x256_1_0_0_1_n_n rfl rfl rfl rfl rfl rfl,
    LibDot.dotGeneral_rc_apply dot_S8192x256_S256x128_S8192x128_1_0_0_1_n_n rfl rfl rfl rfl rfl rfl,
    LibDot.dotGeneral_rc_apply dot_S8192x128_S128x1_S8192x1_1_0_0_1_n_n rfl rfl rfl rfl rfl rfl]

end Cert.ReferenceIdeal.RefValue

end
-- ==== Proof.lean ====
/-
  The certificate: the Pallas decoder kernel against its jnp reference, over the extended reals.

  Both programs gather the student and exercise rows of the embedding table, score them against the last 128 rows of the
  table (the knowledge concepts) through a weight vector, pass the scores through the logistic function, multiply the
  difference by the relevance matrix and run a four-layer perceptron on the result.  The kernel does this 1024 rows at a
  time on a grid of eight points, with the concept matrix transposed beforehand, the matrix products' operands narrowed
  to bfloat16 (the identity on the extended reals) and the logistic function as one operation; the reference does it on
  all 8192 rows at once, with the product against the concept matrix contracted over both operands' columns and the
  logistic function spelt 1 / (1 + exp (−x)).  Row by row the two are the same finite sums of the same terms in the same
  order, so no property of the inputs is used: the specification's batch function (Proof/Spec.lean) is the value of
  both, the kernel's by Proof/KernelBlock.lean and Proof/KernelValue.lean, the reference's by Proof/RefValue.lean.
  The three frames are the generated ones (the reference's is its run with the result dropped), and nothing was
  rewritten when the kernel was idealized, so that conjunct is trivial.
-/
import proofs.«156298_j56848187130407_1_alg».proof.Defs
import proofs.«156298_j56848187130407_1_alg».proof.Proof.Gen.Kernel
import proofs.«156298_j56848187130407_1_alg».proof.Proof.Gen.Kernel.Skeleton
import proofs.«156298_j56848187130407_1_alg».proof.Proof.Gen.Kernel.Launch
import proofs.«156298_j56848187130407_1_alg».proof.Proof.Gen.Kernel.Points
import proofs.«156298_j56848187130407_1_alg».proof.Proof.Gen.Kernel.Frame
import proofs.«156298_j56848187130407_1_alg».proof.Proof.Gen.KernelIdeal
import proofs.«156298_j56848187130407_1_alg».proof.Proof.Gen.KernelIdeal.Skeleton
import proofs.«156298_j56848187130407_1_alg».proof.Proof.Gen.KernelIdeal.Launch
import proofs.«156298_j56848187130407_1_alg».proof.Proof.Gen.KernelIdeal.Points
import proofs.«156298_j56848187130407_1_alg».proof.Proof.Gen.KernelIdeal.Frame
import proofs.«156298_j56848187130407_1_alg».proof.Proof.Gen.ReferenceIdeal
import proofs.«156298_j56848187130407_1_alg».proof.Proof.Gen.ReferenceIdeal.Run
import proofs.«156298_j56848187130407_1_alg».proof.Proof.Gen.ReferenceIdeal.Read
import proofs.«156298_j56848187130407_1_alg».proof.Proof.Gen.Pre_finite_inputs
import proofs.«156298_j56848187130407_1_alg».proof.Proof.KernelValue
import proofs.«156298_j56848187130407_1_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the batch function of the (agreeing) arguments. -/
theorem algebraic : Cert.algebraic_KernelIdeal_ReferenceIdeal := by
  intro m ρ m' ρ' _ hagree
  refine ⟨fun c => Cert.Spec.batchOut (Cert.KernelIdeal.KValue.gatherRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.KernelIdeal.KValue.gatherRows (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (m ((c.tc : Thread Cert.KernelIdeal.nD Cert.KernelIdeal.τ).loc Cert.KernelIdeal.main_arg3))
      (Cert.KernelIdeal.KValue.conceptRows (m ((c.tc : Thread Cert.KernelIdeal.nD Cert.KernelIdeal.τ).loc Cert.KernelIdeal.main_arg0))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v66_eq, Cert.ReferenceIdeal.RefValue.result_eq,
    h0, h1, h2, h3, h4, h5, h6, h7, h8, h9, h10, h11, h12, h13, h14, h15]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
